-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x64 : Shape := ⟨3, ![4, 1024, 64]⟩
abbrev S64x128 : Shape := ⟨2, ![64, 128]⟩
abbrev S64 : Shape := ⟨1, ![64]⟩
abbrev S_ : Shape := ⟨0, ![]⟩

class Facts : Prop where
  bcast_S_S4x1024x64 : S_.BroadcastsInDim S4x1024x64 (![] : Fin 0 → Fin S4x1024x64.rank)
  reducesTo_S4x1024x64_S_d0_1_2 : S4x1024x64.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x1024x64 .f32) (main_arg1 : FVec F S64x128 .f32) (main_arg2 : FVec F S64 .f32) : IVec S_ 1 :=
  let main_v0 : FVec F S4x1024x64 .f32 := Host.absf main_arg0
  let main_cst : FVec F S_ .f32 := constant S_ .f32 0x7F800000#32
  let main_v1 : FVec F S4x1024x64 .f32 := broadcastInDim S4x1024x64 ![] bcast_S_S4x1024x64 main_cst
  let main_v2 : IVec S4x1024x64 1 := cmpf .olt main_v0 main_v1
  let main_c : IVec S_ 1 := constantI S_ 1 1#1
  let main_v3 : IVec S_ 1 := (fun x v => Host.reduce IntOp.andi x v reducesTo_S4x1024x64_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x1024x64 : Shape := ⟨3, ![4, 1024, 64]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1x1024x64 : Shape := ⟨3, ![1, 1024, 64]⟩
abbrev S1024x64 : Shape := ⟨2, ![1024, 64]⟩

abbrev nBuf : Space → Nat
  | .hbm => 9
  | .vmem => 7
  | .smem => 0
  | _ => 0

abbrev bufTy : (tb : Table) → Fin (tcTables nBuf tb) → BufTy
  | .hbm, ⟨0, _⟩ => ⟨S4x1024x64, .f32⟩
  | .hbm, ⟨1, _⟩ => ⟨S64x128, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S1x64, .f32⟩
  | .hbm, ⟨8, _⟩ => ⟨S4x1024x64, .f32⟩
  | .local _ .vmem, ⟨0, _⟩ => ⟨S1x1024x64, .f32⟩
  | .local _ .vmem, ⟨1, _⟩ => ⟨S1x1024x64, .f32⟩
  | .local _ .vmem, ⟨2, _⟩ => ⟨S64x64, .f32⟩
  | .local _ .vmem, ⟨3, _⟩ => ⟨S64x64, .f32⟩
  | .local _ .vmem, ⟨4, _⟩ => ⟨S1x64, .f32⟩
  | .local _ .vmem, ⟨5, _⟩ => ⟨S1x1024x64, .f32⟩
  | .local _ .vmem, ⟨6, _⟩ => ⟨S1x1024x64, .f32⟩
  | _, _ => ⟨S4x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S64x128_S64x64_0_0 : S64x128.Slices ![0, 0] S64x64
  transposes_S64x64_S64x64_1_0 : S64x64.Transposes [1, 0] S64x64
  slices_S64x128_S64x64_0_64 : S64x128.Slices ![0, 64] S64x64
  shapeCasts_S64_S1x64 : S64.ShapeCasts S1x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reduces_S1024x64_S64 : S1024x64.Reduces [0] S64
  broadcasts_S1x64_S1024x64 : S1x64.Broadcasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1024x64_S1x1024x64 : S1024x64.ShapeCasts S1x1024x64
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S4x1024x64.size a
  hwx0_0 : ∀ i : grid0.Coords, EltTy.bits .f32 = 32 ∨ (Rect.block (s := S4x1024x64) S1x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S4x1024x64.size a
  hwx0_4 : ∀ i : grid0.Coords, EltTy.bits .f32 = 32 ∨ (Rect.block (s := S4x1024x64) S1x1024x64.size (cc0_transform_4 i) (hinb0_4 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x1024x64 : Shape := ⟨3, ![4, 1024, 64]⟩
abbrev S64x128 : Shape := ⟨2, ![64, 128]⟩
abbrev S64 : Shape := ⟨1, ![64]⟩
abbrev S64x64 : Shape := ⟨2, ![64, 64]⟩
abbrev S4x1024x1x64 : Shape := ⟨4, ![4, 1024, 1, 64]⟩
abbrev S4x1x1024x64 : Shape := ⟨4, ![4, 1, 1024, 64]⟩
abbrev S4x1024x1024x64 : Shape := ⟨4, ![4, 1024, 1024, 64]⟩
abbrev S1x1x1x64 : Shape := ⟨4, ![1, 1, 1, 64]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x1024x64, .f32⟩
  | .hbm, ⟨1, _⟩ => ⟨S64x128, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S4x1024x64, .f32⟩
  | .hbm, ⟨6, _⟩ => ⟨S4x1024x64, .f32⟩
  | .hbm, ⟨7, _⟩ => ⟨S4x1024x1x64, .f32⟩
  | .hbm, ⟨8, _⟩ => ⟨S4x1x1024x64, .f32⟩
  | .hbm, ⟨9, _⟩ => ⟨S4x1024x1024x64, .f32⟩
  | .hbm, ⟨10, _⟩ => ⟨S4x1024x1024x64, .f32⟩
  | .hbm, ⟨11, _⟩ => ⟨S4x1024x1024x64, .f32⟩
  | .hbm, ⟨12, _⟩ => ⟨S1x1x1x64, .f32⟩
  | .hbm, ⟨13, _⟩ => ⟨S4x1024x1024x64, .f32⟩
  | .hbm, ⟨14, _⟩ => ⟨S4x1024x1024x64, .f32⟩
  | .hbm, ⟨15, _⟩ => ⟨S_, .f32⟩
  | .hbm, ⟨16, _⟩ => ⟨S4x1024x64, .f32⟩
  | _, _ => ⟨S4x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  slices_S64x128_S64x64_0_0 : S64x128.Slices ![0, 0] S64x64
  slices_S64x128_S64x64_0_64 : S64x128.Slices ![0, 64] S64x64
  bcast_S4x1024x64_S4x1024x1x64_0_1_3 : S4x1024x64.BroadcastsInDim S4x1024x1x64 (![0, 1, 3] : Fin 3 → Fin S4x1024x1x64.rank)
  bcast_S4x1024x64_S4x1x1024x64_0_2_3 : S4x1024x64.BroadcastsInDim S4x1x1024x64 (![0, 2, 3] : Fin 3 → Fin S4x1x1024x64.rank)
  bcast_S4x1024x1x64_S4x1024x1024x64_0_1_2_3 : S4x1024x1x64.BroadcastsInDim S4x1024x1024x64 (![0, 1, 2, 3] : Fin 4 → Fin S4x1024x1024x64.rank)
  bcast_S4x1x1024x64_S4x1024x1024x64_0_1_2_3 : S4x1x1024x64.BroadcastsInDim S4x1024x1024x64 (![0, 1, 2, 3] : Fin 4 → Fin S4x1024x1024x64.rank)
  bcast_S64_S1x1x1x64_3 : S64.BroadcastsInDim S1x1x1x64 (![3] : Fin 1 → Fin S1x1x1x64.rank)
  bcast_S1x1x1x64_S4x1024x1024x64_0_1_2_3 : S1x1x1x64.BroadcastsInDim S4x1024x1024x64 (![0, 1, 2, 3] : Fin 4 → Fin S4x1024x1024x64.rank)
  reducesTo_S4x1024x1024x64_S4x1024x64_d1 : S4x1024x1024x64.ReducesTo [1] S4x1024x64
  h_S_ : 0 < S_.numel
  dot_S4x1024x64_S64x64_S4x1024x64_2_1_01_0_n_n_wf : DotDims.WF S4x1024x64 S64x64 S4x1024x64 [2] [1] [0, 1] [0] [] []

variable [Facts₀]

def dot_S4x1024x64_S64x64_S4x1024x64_2_1_01_0_n_n : DotDims S4x1024x64 S64x64 S4x1024x64 where
  lhsContracting := [2]
  rhsContracting := [1]
  lhsNonContracting := [0, 1]
  rhsNonContracting := [0]
  lhsBatch := []
  rhsBatch := []
  wf := dot_S4x1024x64_S64x64_S4x1024x64_2_1_01_0_n_n_wf

class Facts : Prop extends Facts₀ where

variable [Facts]
-- ==== Proof.PairPool.lean ====
/-
  The function both programs compute. For a batch element `b`, a point `n` and an output channel `o`, with
  `A b i o = ∑ d, x[b,i,d] · W[o,d]` (the weight's first 64 columns) and `C b n o = ∑ d, x[b,n,d] · W[o,64+d]` (its last 64),
  the result is `(max_i A b i o + C b n o) + bias o`: the pairwise linear layer is separable, and the part that does
  not depend on the pooled point `i` leaves the maximum. The one law used is that adding a fixed extended real is
  monotone and sends `-∞` to `-∞`, so it commutes with a maximum taken from `-∞`; no finiteness is needed.
-/
import Idealize.ShloMosaic.PureOps.Ideal
import Idealize.ShloMosaic.Lib.ValueIdx

noncomputable section

open scoped BigOperators
open Idealize.ShloMosaic Idealize.ShloMosaic.ValueIdx

namespace Cert.PairPool

/-- The points: 4 batch elements of 1024 points with 64 features. -/
abbrev Pts : Shape := ⟨3, ![4, 1024, 64]⟩
/-- The linear layer's weight: 64 output channels by 2 · 64 input features. -/
abbrev Wgt : Shape := ⟨2, ![64, 128]⟩
/-- The bias: one per output channel. -/
abbrev Bias : Shape := ⟨1, ![64]⟩

/-- The pattern of `-∞` denotes the bottom of the extended reals. -/
theorem negInf : Ideal.ofBits .f32 0xFF800000#32 = (⊥ : EReal) := by simp [Ideal.ofBits, Ideal.ieee]

/-- Adding fixed extended reals `c` and then `b` commutes with a maximum taken from `-∞` over any finite family:
    `z ↦ z + c + b` is monotone, so it maps `max` to `max`, and it fixes `-∞`. -/
theorem fold_max_shift {ι : Type} (s : Finset ι) (a : ι → EReal) (c b : EReal) :
    s.fold max (⊥ : EReal) (fun k => a k + c + b) = s.fold max (⊥ : EReal) a + c + b := by
  have hm : Monotone (fun z : EReal => z + c + b) :=
    fun _ _ h => add_le_add (add_le_add h le_rfl) le_rfl
  have h := Finset.fold_hom (op := (max : EReal → EReal → EReal)) (op' := (max : EReal → EReal → EReal))
    (m := fun z : EReal => z + c + b) (b := (⊥ : EReal)) (f := a) (s := s) (fun _ _ => hm.map_max)
  simp only [EReal.bot_add] at h
  exact h

/-- The pooled part's term: point `i` of batch `b` against the first 64 columns of the weight's row `o`. -/
def first (x : Pts.Idx → EReal) (W : Wgt.Idx → EReal) (b : Fin 4) (i : Fin 1024) (o : Fin 64) : EReal :=
  ∑ d : Fin 64, x (ix3 b i d) * W (ix2 o (⟨d.val, by omega⟩ : Fin 128))

/-- The kept part's term: point `n` of batch `b` against the last 64 columns of the weight's row `o`. -/
def second (x : Pts.Idx → EReal) (W : Wgt.Idx → EReal) (b : Fin 4) (n : Fin 1024) (o : Fin 64) : EReal :=
  ∑ d : Fin 64, x (ix3 b n d) * W (ix2 o (⟨64 + d.val, by omega⟩ : Fin 128))

/-- The result at `(b, n, o)`: the maximum over the points `i` of the first term, plus the second term at `n`, plus the bias. -/
def pooled (x : Pts.Idx → EReal) (W : Wgt.Idx → EReal) (bias : Bias.Idx → EReal) : Pts.Idx → EReal := fun j =>
  (Finset.univ : Finset (Fin 1024)).fold max (⊥ : EReal) (fun i => first x W (j 0) i (j 2)) + second x W (j 0) (j 1) (j 2)
    + bias (ix1 (j 2))

/-- The same with the maximum taken last, over the full pairwise sums: what a pool over all pairs computes. -/
theorem pooled_eq_max_of_pairs (x : Pts.Idx → EReal) (W : Wgt.Idx → EReal) (bias : Bias.Idx → EReal) (j : Pts.Idx) :
    (Finset.univ : Finset (Fin 1024)).fold max (⊥ : EReal)
        (fun i => first x W (j 0) i (j 2) + second x W (j 0) (j 1) (j 2) + bias (ix1 (j 2)))
      = pooled x W bias j :=
  fold_max_shift _ _ _ _

end Cert.PairPool

end
-- ==== Proof.ReferencePool.lean ====
/-
  The reference reads as the pooled function. Its last stage is a maximum from `-∞` over the second axis of the
  four-axis array `(b, i, n, o) ↦ (A b i o + C b n o) + bias o`, where `A` contracts the points with the weight's first
  64 columns and `C` with its last 64. At a result index `(b, n, o)` the fold runs over `i`; its summand is the full
  pairwise term, and adding `C b n o + bias o` commutes with the maximum.
-/
import proofs.«106308_j78718160601617_1_alg».proof.Proof.Gen.ReferenceIdeal.Read
import proofs.«106308_j78718160601617_1_alg».proof.Proof.PairPool
import Idealize.ShloMosaic.PureOps.Ideal.Laws
import Idealize.ShloMosaic.PureOps.Reduce

noncomputable section

open scoped BigOperators
open Idealize.ShloMosaic Idealize.ShloMosaic.ValueIdx

namespace Cert.ReferenceIdeal.Pool

open Cert.ReferenceIdeal Cert.ReferenceIdeal.Gen Cert.ReferenceIdeal.Read Cert.PairPool

/-- The pooled axis is axis 1 of the pairwise array. -/
theorem pairs_reduce : S4x1024x1024x64.Reduces [1] S4x1024x64 := by decide

/-- The pairwise index over the result index `j` with pooled point `i` inserted. -/
abbrev pairAt (j : S4x1024x64.Idx) (i : Fin 1024) : S4x1024x1024x64.Idx := pairs_reduce.lift j i

/-- Through the two broadcasts the first product reads the points at `(b, i, d)`. -/
theorem first_point (j : S4x1024x64.Idx) (i : Fin 1024) (d : Fin 64) :
    lidx_main_v2 (idx_main_v4 (idx_main_v6 (pairAt j i))) d = ix3 (j 0) i d := by
  funext a; apply Fin.ext
  match a with
  | ⟨0, _⟩ => rfl
  | ⟨1, _⟩ => rfl
  | ⟨2, _⟩ => rfl

/-- … and the weight at `(o, d)`: the first 64 columns. -/
theorem first_weight (j : S4x1024x64.Idx) (i : Fin 1024) (d : Fin 64) :
    idx_main_v0 (ridx_main_v2 (idx_main_v4 (idx_main_v6 (pairAt j i))) d) = ix2 (j 2) (⟨d.val, by omega⟩ : Fin 128) := by
  funext a; apply Fin.ext
  match a with
  | ⟨0, _⟩ => rfl
  | ⟨1, _⟩ => rfl

/-- The second product reads the points at `(b, n, d)`, whatever the pooled point. -/
theorem second_point (j : S4x1024x64.Idx) (i : Fin 1024) (d : Fin 64) :
    lidx_main_v3 (idx_main_v5 (idx_main_v7 (pairAt j i))) d = ix3 (j 0) (j 1) d := by
  funext a; apply Fin.ext
  match a with
  | ⟨0, _⟩ => rfl
  | ⟨1, _⟩ => rfl
  | ⟨2, _⟩ => rfl

/-- … and the weight at `(o, 64 + d)`: the last 64 columns. -/
theorem second_weight (j : S4x1024x64.Idx) (i : Fin 1024) (d : Fin 64) :
    idx_main_v1 (ridx_main_v3 (idx_main_v5 (idx_main_v7 (pairAt j i))) d) = ix2 (j 2) (⟨64 + d.val, by omega⟩ : Fin 128) := by
  funext a; apply Fin.ext
  match a with
  | ⟨0, _⟩ => rfl
  | ⟨1, _⟩ => rfl

/-- The bias is read at the channel `o`. -/
theorem bias_channel (j : S4x1024x64.Idx) (i : Fin 1024) :
    idx_main_v9 (idx_main_v10 (pairAt j i)) = ix1 (j 2) := by
  funext a; apply Fin.ext
  match a with
  | ⟨0, _⟩ => rfl

/-- The pairwise array at `(b, i, n, o)` is `(A b i o + C b n o) + bias o`. -/
theorem pair_term (x : (⟨S4x1024x64, .f32⟩ : BufTy).Contents (Elt Ideal)) (W : (⟨S64x128, .f32⟩ : BufTy).Contents (Elt Ideal))
    (bias : (⟨S64, .f32⟩ : BufTy).Contents (Elt Ideal)) (j : S4x1024x64.Idx) (i : Fin 1024) :
    val_main_v11 (F := Ideal) x W bias (pairAt j i)
      = first x W (j 0) i (j 2) + second x W (j 0) (j 1) (j 2) + bias (ix1 (j 2)) := by
  rw [val_main_v11_apply, val_main_v8_apply, val_main_v6_apply, val_main_v4_apply, val_main_v2_apply,
    val_main_v7_apply, val_main_v5_apply, val_main_v3_apply, val_main_v10_apply, val_main_v9_apply]
  simp only [val_main_v0_apply, val_main_v1_apply, first_point, first_weight, second_point, second_weight, bias_channel]
  rfl

/-- The reference's result is the pooled function of its arguments. -/
theorem result_eq (x : (⟨S4x1024x64, .f32⟩ : BufTy).Contents (Elt Ideal)) (W : (⟨S64x128, .f32⟩ : BufTy).Contents (Elt Ideal))
    (bias : (⟨S64, .f32⟩ : BufTy).Contents (Elt Ideal)) :
    val_main_v12 (F := Ideal) x W bias = pooled x W bias := by
  funext j
  unfold val_main_v12
  rw [Host.reduce_eq_fold_single FloatOps.maximumf _ _ reducesTo_S4x1024x1024x64_S4x1024x64_d1 pairs_reduce h_S_ j,
    ← pooled_eq_max_of_pairs]
  show (Finset.univ : Finset (Fin 1024)).fold max (Ideal.ofBits .f32 0xFF800000#32)
      (fun i => val_main_v11 (F := Ideal) x W bias (pairAt j i)) = _
  rw [negInf]
  exact Finset.fold_congr fun i _ => pair_term x W bias j i

end Cert.ReferenceIdeal.Pool

end
-- ==== Proof.KernelBlock.lean ====
/-
  What one grid point's body computes, index by index, at the ideal values. The body loads a batch element's points
  `X` ([1, 1024, 64]), the two transposed weight halves `P`, `Q` ([64, 64] each) and the bias row `r` ([1, 64]); it forms
  `A = X · P` and `C = X · Q` (the change to bf16 is the identity here), takes the column maxima of `A` from `-∞`, spreads
  them down the rows, adds `C` and then the bias row. At `(0, n, o)` that is
  `(max_i ∑ d, X[0,i,d] · P[d,o] + ∑ d, X[0,n,d] · Q[d,o]) + r[0,o]`.
-/
import proofs.«106308_j78718160601617_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Block

open Cert.KernelIdeal Cert.KernelIdeal.Gen

/-! ## The layout operations of the body, read at an index -/

/-- Dropping the unit batch axis of a [1, 1024, 64] vector. -/
theorem dropBatch_apply {α : Type} (v : S1x1024x64.Idx → α) (h : S1x1024x64.ShapeCasts S1024x64) (n : Fin 1024) (d : Fin 64) :
    shapeCast S1024x64 v h (ix2 n d) = v (ix3 (0 : Fin 1) n d) := by
  refine (shapeCast_dropUnit_apply _ v h _).trans (congrArg v ?_)
  funext a; apply Fin.ext
  match a with
  | ⟨0, _⟩ => rfl
  | ⟨1, _⟩ => rfl
  | ⟨2, _⟩ => rfl

/-- Putting the unit batch axis back on a [1024, 64] vector. -/
theorem withBatch_apply {α : Type} (v : S1024x64.Idx → α) (h : S1024x64.ShapeCasts S1x1024x64) (n : Fin 1024) (o : Fin 64) :
    shapeCast S1x1024x64 v h (ix3 (0 : Fin 1) n o) = v (ix2 n o) := by
  refine (shapeCast_addUnit_apply _ v h _).trans (congrArg v ?_)
  funext a; apply Fin.ext
  match a with
  | ⟨0, _⟩ => rfl
  | ⟨1, _⟩ => rfl

/-- A vector of 64 channels as a one-row matrix. -/
theorem asRow_apply {α : Type} (v : S64.Idx → α) (h : S64.ShapeCasts S1x64) (o : Fin 64) :
    shapeCast S1x64 v h (ix2 (0 : Fin 1) o) = v (ix1 o) := by
  refine (shapeCast_addUnit_apply _ v h _).trans (congrArg v ?_)
  funext a; apply Fin.ext
  match a with
  | ⟨0, _⟩ => rfl

/-- A one-row matrix spread down 1024 rows reads the row at the column. -/
theorem downRows_apply {α : Type} (v : S1x64.Idx → α) (h : S1x64.Broadcasts S1024x64) (n : Fin 1024) (o : Fin 64) :
    broadcastTo S1024x64 v h (ix2 n o) = v (ix2 (0 : Fin 1) o) := by
  refine broadcastTo_apply v h _ _ fun a => ?_
  match a with
  | ⟨0, _⟩ => show (0 : Nat) = if (1 : Nat) = 1 then 0 else _; rw [if_pos rfl]
  | ⟨1, _⟩ => show o.val = if (64 : Nat) = 1 then 0 else _; rw [if_neg (by decide)]; rfl

/-! ## The matrix product of the body -/

theorem lhs_row (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem lhs_feature (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem rhs_feature (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem rhs_channel (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- The product into a zero accumulator at `(n, o)`: the sum over the 64 features of row `n` of the left operand times
    column `o` of the right. -/
theorem product_apply {φ₁ φ₂ : FTy} (l : FVec Ideal S1024x64 φ₁) (r : FVec Ideal S64x64 φ₂) (n : Fin 1024) (o : Fin 64) :
    matmul dot_S1024x64_S64x64_S1024x64_1_0_0_1_n_n none l r (constant S1024x64 .f32 0x00000000#32) (ix2 n o)
      = ∑ d : Fin 64, l (ix2 n d) * r (ix2 d o) := by
  refine (Ideal.matmul_constant_zero_apply dot_S1024x64_S64x64_S1024x64_1_0_0_1_n_n none l r (ix2 n o)).trans ?_
  rw [← Equiv.sum_comp (contrEquiv1 dot_S1024x64_S64x64_S1024x64_1_0_0_1_n_n 64 rfl rfl).symm]
  refine Finset.sum_congr rfl fun d _ => ?_
  have hd := contrEquiv1_symm_val dot_S1024x64_S64x64_S1024x64_1_0_0_1_n_n 64 rfl rfl d
  have el : dot_S1024x64_S64x64_S1024x64_1_0_0_1_n_n.lhsIdx (ix2 n o) ((contrEquiv1 dot_S1024x64_S64x64_S1024x64_1_0_0_1_n_n 64 rfl rfl).symm d) = ix2 n d := funext fun a => Fin.ext (by
    match a with
    | ⟨0, _⟩ => exact lhs_row _ _
    | ⟨1, _⟩ => exact (lhs_feature _ _).trans hd)
  have er : dot_S1024x64_S64x64_S1024x64_1_0_0_1_n_n.rhsIdx (ix2 n o) ((contrEquiv1 dot_S1024x64_S64x64_S1024x64_1_0_0_1_n_n 64 rfl rfl).symm d) = ix2 d o := funext fun a => Fin.ext (by
    match a with
    | ⟨0, _⟩ => exact (rhs_feature _ _).trans hd
    | ⟨1, _⟩ => exact rhs_channel _ _)
  rw [el, er]

/-! ## The column maxima -/

/-- The maximum over the rows, from the pattern of `-∞`, at channel `o`: the fold of `max` down column `o`. -/
theorem columnMax_apply (v : FVec Ideal S1024x64 .f32) (hφ : FKind.Formats .f32)
    (hacc : (0xFF800000#32 : BitVec 32) = FKind.maximumf.neutral .f32 hφ) (o : Fin 64) :
    multiReduction .maximumf [0] S64 v 0xFF800000#32 reduces_S1024x64_S64 hφ hacc (ix1 o)
      = (Finset.univ : Finset (Fin 1024)).fold max (Ideal.ofBits .f32 0xFF800000#32) (fun i => v (ix2 i o)) := by
  refine (Ideal.multiReduction_maximumf_single v _ reduces_S1024x64_S64 hφ hacc (ix1 o)).trans ?_
  refine Finset.fold_congr fun i _ => congrArg v ?_
  funext a; apply Fin.ext
  match a with
  | ⟨0, _⟩ => rfl
  | ⟨1, _⟩ => rfl

/-! ## The body's stored value -/

/-- The value the body stores, at `(0, n, o)`. -/
theorem payload_apply (X : Vec Ideal S1x1024x64 .f32) (P Q : Vec Ideal S64x64 .f32) (r : Vec Ideal S1x64 .f32)
    (n : Fin 1024) (o : Fin 64) :
    k0_pay1 (F := Ideal) X P Q r (ix3 (0 : Fin 1) n o)
      = (Finset.univ : Finset (Fin 1024)).fold max (Ideal.ofBits .f32 0xFF800000#32)
            (fun i => ∑ d : Fin 64, X (ix3 (0 : Fin 1) i d) * P (ix2 d o))
          + (∑ d : Fin 64, X (ix3 (0 : Fin 1) n d) * Q (ix2 d o))
          + r (ix2 (0 : Fin 1) o) := by
  unfold k0_pay1
  dsimp only
  rw [withBatch_apply]
  show (broadcastTo S1024x64 _ _ (ix2 n o) + matmul _ _ _ _ _ (ix2 n o)) + broadcastTo S1024x64 _ _ (ix2 n o) = _
  rw [downRows_apply, downRows_apply, asRow_apply]
  refine congrArg₂ (· + ·) (congrArg₂ (· + ·) ?_ ?_) ?_
  · refine (columnMax_apply _ _ _ o).trans (Finset.fold_congr fun i _ => ?_)
    refine (product_apply _ _ i o).trans (Finset.sum_congr rfl fun d _ => ?_)
    exact congrArg₂ (· * ·) (dropBatch_apply X _ i d) (congrFun (shapeCast_self P _) (ix2 d o))
  · refine (product_apply _ _ n o).trans (Finset.sum_congr rfl fun d _ => ?_)
    exact congrArg₂ (· * ·) (dropBatch_apply X _ n d) (congrFun (shapeCast_self Q _) (ix2 d o))
  · exact congrFun (shapeCast_self r _) (ix2 (0 : Fin 1) o)

end Cert.KernelIdeal.Block

end
-- ==== Proof.KernelArray.lean ====
/-
  From the grid points' blocks to the whole result array. Grid point `t` works on batch element `t`: its points block is
  rows `(t, ·, ·)` of the points, the two weight blocks are the whole transposed halves of the weight (the host slices the
  first and the last 64 columns and transposes each, so entry `(d, o)` of a half is the weight at `(o, d)` resp.
  `(o, 64 + d)`), the bias block is the bias as a row, and the block written back is rows `(t, ·, ·)` of the result.
  The four blocks tile the result, so the array ends holding the pooled function of the arguments.
-/
import proofs.«106308_j78718160601617_1_alg».proof.Proof.Gen.KernelIdeal.Value
import proofs.«106308_j78718160601617_1_alg».proof.Proof.KernelBlock
import proofs.«106308_j78718160601617_1_alg».proof.Proof.PairPool
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value Cert.KernelIdeal.Block Cert.PairPool

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The argument arrays, at their literal types. -/
abbrev points (c : Dev nD) : Pts.Idx → EReal := m ((c : Thread nD τ).loc main_arg0)
abbrev weight (c : Dev nD) : Wgt.Idx → EReal := m ((c : Thread nD τ).loc main_arg1)
abbrev bias (c : Dev nD) : Bias.Idx → EReal := m ((c : Thread nD τ).loc main_arg2)

/-- A grid point is a batch element. -/
abbrev batch (t : Fin cfg0.N) : Fin 4 := ⟨t.val, lt_of_lt_of_eq t.isLt (show cfg0.N = 4 from N_0)⟩

/-! ## The arrays the host operations hand to the region -/

/-- The first operand of the weights: the transposed first 64 columns. -/
theorem firstHalf_eq (c : Dev nD) : (V m c main_v1 : S64x64.Idx → EReal)
    = transpose S64x64 [1, 0] (extractStridedSlice S64x64 ![0, 0] (weight m c) slices_S64x128_S64x64_0_0) transposes_S64x64_S64x64_1_0 := by
  dsimp only [Gen.V, Gen.hostOps0]; after_results

/-- The second: the transposed last 64 columns. -/
theorem secondHalf_eq (c : Dev nD) : (V m c main_v3 : S64x64.Idx → EReal)
    = transpose S64x64 [1, 0] (extractStridedSlice S64x64 ![0, 64] (weight m c) slices_S64x128_S64x64_0_64) transposes_S64x64_S64x64_1_0 := by
  dsimp only [Gen.V, Gen.hostOps0]; after_results

/-- The bias as a one-row matrix. -/
theorem biasRow_eq (c : Dev nD) : (V m c main_v4 : S1x64.Idx → EReal)
    = shapeCast S1x64 (bias m c) shapeCasts_S64_S1x64 := by
  dsimp only [Gen.V, Gen.hostOps0]; after_results; rfl

/-- Entry `(d, o)` of the transposed first half is the weight at `(o, d)`. -/
theorem firstHalf_apply (c : Dev nD) (d o : Fin 64) :
    (V m c main_v1 : S64x64.Idx → EReal) (ix2 d o) = weight m c (ix2 o (⟨d.val, by omega⟩ : Fin 128)) := by
  rw [firstHalf_eq]
  refine (transpose_apply _ _ _ (ix2 d o) (ix2 o d) fun b => ?_).trans ?_
  · match b with
    | ⟨0, _⟩ => rfl
    | ⟨1, _⟩ => rfl
  · refine extractStridedSlice_apply _ _ _ (ix2 o d) _ fun a => ?_
    match a with
    | ⟨0, _⟩ => show o.val = 0 + o.val; omega
    | ⟨1, _⟩ => show d.val = 0 + d.val; omega

/-- Entry `(d, o)` of the transposed second half is the weight at `(o, 64 + d)`. -/
theorem secondHalf_apply (c : Dev nD) (d o : Fin 64) :
    (V m c main_v3 : S64x64.Idx → EReal) (ix2 d o) = weight m c (ix2 o (⟨64 + d.val, by omega⟩ : Fin 128)) := by
  rw [secondHalf_eq]
  refine (transpose_apply _ _ _ (ix2 d o) (ix2 o d) fun b => ?_).trans ?_
  · match b with
    | ⟨0, _⟩ => rfl
    | ⟨1, _⟩ => rfl
  · refine extractStridedSlice_apply _ _ _ (ix2 o d) _ fun a => ?_
    match a with
    | ⟨0, _⟩ => show o.val = 0 + o.val; omega
    | ⟨1, _⟩ => show 64 + d.val = 64 + d.val; rfl

/-- Entry `(0, o)` of the bias row is the bias at `o`. -/
theorem biasRow_apply (c : Dev nD) (o : Fin 64) :
    (V m c main_v4 : S1x64.Idx → EReal) (ix2 (0 : Fin 1) o) = bias m c (ix1 o) := by
  rw [biasRow_eq]
  exact asRow_apply _ _ o

/-! ## The windows' blocks at a grid point -/

/-- The printed index maps, decided over the four points: the points' and the result's block index is `(t, 0, 0)`, the
    others' is zero. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The points block at point `t` is batch element `t` of the points. -/
theorem pointsBlock_apply (c : Dev nD) (t : Fin cfg0.N) (i : Fin 1024) (d : Fin 64) :
    (iblk m c 0 t : Vec Ideal S1x1024x64 .f32) (ix3 (0 : Fin 1) i d) = points m c (ix3 (batch t) i d) := by
  show V m c main_arg0 (((cfg0.win 0).blk t).view.emb (ix3 (0 : Fin 1) i d)) = _
  rw [V_main_arg0]
  refine congrArg (m ((c : Thread nD τ).loc main_arg0)) ?_
  obtain ⟨e0, e1, e2, -⟩ := index_facts t
  funext a; apply Fin.ext
  match a with
  | ⟨0, _⟩ => show win0_0.index t (0 : Fin 3) * 1 + 1 * 0 = t.val; omega
  | ⟨1, _⟩ => show win0_0.index t (1 : Fin 3) * 1024 + 1 * i.val = i.val; omega
  | ⟨2, _⟩ => show win0_0.index t (2 : Fin 3) * 64 + 1 * d.val = d.val; omega

/-- The first weight block is the whole transposed first half. -/
theorem firstBlock_apply (c : Dev nD) (t : Fin cfg0.N) (d o : Fin 64) :
    (iblk m c 1 t : Vec Ideal S64x64 .f32) (ix2 d o) = weight m c (ix2 o (⟨d.val, by omega⟩ : Fin 128)) := by
  show V m c main_v1 (((cfg0.win 1).blk t).view.emb (ix2 d o)) = _
  have e : ((cfg0.win 1).blk t).view.emb (ix2 d o) = ix2 d o := by
    obtain ⟨-, -, -, e0, e1, -⟩ := index_facts t
    funext a; apply Fin.ext
    match a with
    | ⟨0, _⟩ => show win0_1.index t (0 : Fin 2) * 64 + 1 * d.val = d.val; omega
    | ⟨1, _⟩ => show win0_1.index t (1 : Fin 2) * 64 + 1 * o.val = o.val; omega
  rw [e]
  exact firstHalf_apply m c d o

/-- The second weight block is the whole transposed second half. -/
theorem secondBlock_apply (c : Dev nD) (t : Fin cfg0.N) (d o : Fin 64) :
    (iblk m c 2 t : Vec Ideal S64x64 .f32) (ix2 d o) = weight m c (ix2 o (⟨64 + d.val, by omega⟩ : Fin 128)) := by
  show V m c main_v3 (((cfg0.win 2).blk t).view.emb (ix2 d o)) = _
  have e : ((cfg0.win 2).blk t).view.emb (ix2 d o) = ix2 d o := by
    obtain ⟨-, -, -, -, -, e0, e1, -⟩ := index_facts t
    funext a; apply Fin.ext
    match a with
    | ⟨0, _⟩ => show win0_2.index t (0 : Fin 2) * 64 + 1 * d.val = d.val; omega
    | ⟨1, _⟩ => show win0_2.index t (1 : Fin 2) * 64 + 1 * o.val = o.val; omega
  rw [e]
  exact secondHalf_apply m c d o

/-- The bias block is the bias row. -/
theorem biasBlock_apply (c : Dev nD) (t : Fin cfg0.N) (o : Fin 64) :
    (iblk m c 3 t : Vec Ideal S1x64 .f32) (ix2 (0 : Fin 1) o) = bias m c (ix1 o) := by
  show V m c main_v4 (((cfg0.win 3).blk t).view.emb (ix2 (0 : Fin 1) o)) = _
  have e : ((cfg0.win 3).blk t).view.emb (ix2 (0 : Fin 1) o) = ix2 (0 : Fin 1) o := by
    obtain ⟨-, -, -, -, -, -, -, e0, e1, -⟩ := index_facts t
    funext a; apply Fin.ext
    match a with
    | ⟨0, _⟩ => show win0_3.index t (0 : Fin 2) * 1 + 1 * 0 = 0; omega
    | ⟨1, _⟩ => show win0_3.index t (1 : Fin 2) * 64 + 1 * o.val = o.val; omega
  rw [e]
  exact biasRow_apply m c o

/-- Entry `(0, n, o)` of the result's block at point `t` is entry `(t, n, o)` of the result. -/
theorem resultBlock_emb (t : Fin cfg0.N) (n : Fin 1024) (o : Fin 64) :
    ((cfg0.win 4).blk t).view.emb (ix3 (0 : Fin 1) n o) = ix3 (batch t) n o := by
  obtain ⟨-, -, -, -, -, -, -, -, -, e0, e1, e2⟩ := index_facts t
  funext a; apply Fin.ext
  match a with
  | ⟨0, _⟩ => show win0_4.index t (0 : Fin 3) * 1 + 1 * 0 = t.val; omega
  | ⟨1, _⟩ => show win0_4.index t (1 : Fin 3) * 1024 + 1 * n.val = n.val; omega
  | ⟨2, _⟩ => show win0_4.index t (2 : Fin 3) * 64 + 1 * o.val = o.val; omega

/-! ## What each point writes back, and the array after the run -/

/-- Point `t` writes back block `t` of the pooled function of the arguments. -/
theorem flushed_eq (c : Dev nD) (t : Fin cfg0.N) :
    (dats m 0 c).flushed 4 t = ((cfg0.win 4).blk t).view.read (Elt Ideal) (pooled (points m c) (weight m c) (bias m c)) := by
  rw [flushed4]
  unfold out0_4
  rw [View.canon_unit_zero zero3]
  simp only [View.ld_unit_zero (S := S1x1024x64) zero3, View.ld_unit_zero (S := S64x64) zero2, View.ld_unit_zero (S := S1x64) zero2]
  funext y
  obtain ⟨z, n, o, rfl⟩ : ∃ (z : Fin 1) (n : Fin 1024) (o : Fin 64), y = ix3 z n o := ⟨y 0, y 1, y 2, eq_ix3 y⟩
  obtain rfl : z = 0 := Subsingleton.elim _ _
  show k0_pay1 (F := Ideal) (iblk m c 0 t) (iblk m c 1 t) (iblk m c 2 t) (iblk m c 3 t) (ix3 (0 : Fin 1) n o)
    = pooled (points m c) (weight m c) (bias m c) (((cfg0.win 4).blk t).view.emb (ix3 (0 : Fin 1) n o))
  rw [resultBlock_emb]
  refine (payload_apply (iblk m c 0 t) (iblk m c 1 t) (iblk m c 2 t) (iblk m c 3 t) n o).trans ?_
  rw [negInf]
  show _ = (Finset.univ : Finset (Fin 1024)).fold max (⊥ : EReal) (fun i => first (points m c) (weight m c) (batch t) i o)
      + second (points m c) (weight m c) (batch t) n o + bias m c (ix1 o)
  refine congrArg₂ (· + ·) (congrArg₂ (· + ·) (Finset.fold_congr fun i _ => ?_) ?_) (biasBlock_apply m c t o)
  · exact Finset.sum_congr rfl fun d _ => congrArg₂ (· * ·) (pointsBlock_apply m c t i d) (firstBlock_apply m c t d o)
  · exact Finset.sum_congr rfl fun d _ => congrArg₂ (· * ·) (pointsBlock_apply m c t n d) (secondBlock_apply m c t d o)

/-- An index of the result is in point `t`'s block iff each coordinate is in the block's range on its axis. -/
theorem mem_block (t : Fin cfg0.N) (i : S4x1024x64.Idx) :
    i ∈ ((cfg0.win 4).blk t).view.set ↔ ∀ a : Fin 3, win0_4.index t a * S1x1024x64.size a ≤ (i a).val ∧ (i a).val < win0_4.index t a * S1x1024x64.size a + S1x1024x64.size a := by
  show i ∈ ((View.whole main_v5).slice (win0_4.rect t)).set ↔ _
  rw [View.set_slice_whole, Rect.mem_set_unit]
  exact Iff.rfl

/-- Every index `(b, n, o)` of the result lies in the block of point `b`. -/
theorem covered (i : S4x1024x64.Idx) :
    ∃ t : Fin cfg0.N, (cfg0.win 4).flush t = true ∧ i ∈ ((cfg0.win 4).blk t).view.set := by
  have h0 : (i 0).val < 4 := (i 0).isLt
  have h1 : (i 1).val < 1024 := (i 1).isLt
  have h2 : (i 2).val < 64 := (i 2).isLt
  let t : Fin cfg0.N := ⟨(i 0).val, by rw [show cfg0.N = 4 from N_0]; exact h0⟩
  refine ⟨t, flush0_4 t, ?_⟩
  rw [mem_block]
  obtain ⟨-, -, -, -, -, -, -, -, -, e0, e1, e2⟩ := index_facts t
  have et : t.val = (i 0).val := rfl
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 64 ≤ (i 2).val ∧ (i 2).val < win0_4.index t (2 : Fin 3) * 64 + 64; omega

/-- The result array after the run is the pooled function of the arguments. -/
theorem final (c : Dev nD) : (dats m 0 c).arrAt 4 cfg0.N = pooled (points m c) (weight m c) (bias m c) :=
  (dats m 0 c).arrAt_eq_of_cover 4 (pooled (points m c) (weight m c) (bias m c)) (fun t _ => flushed_eq m c t) covered

/-- The kernel's run, read: the result at the pooled function of the arguments, the arguments unchanged. -/
theorem run : θ_run defs (onTc (τ := τ) (main (F := Ideal))) ⟨m, fun _ => 0, ρ⟩ fun r => ∀ c : Dev nD,
      r.2.mem ((c : Thread nD τ).loc main_v5) = pooled (points m c) (weight m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.KernelIdeal.Whole

end
-- ==== Proof.lean ====
/-
  The kernel pools a separable pairwise linear layer: with `A b i o = ∑ d, x[b,i,d] · W[o,d]` and
  `C b n o = ∑ d, x[b,n,d] · W[o,64+d]`, the reference takes `max_i ((A b i o + C b n o) + bias o)` over all pairs, the
  kernel `(max_i A b i o + C b n o) + bias o` with one batch element per grid point. On the extended reals the two agree
  for every input: adding a fixed number is monotone and keeps `-∞`, so it commutes with a maximum taken from `-∞`
  (Proof/PairPool.lean). The reference's stages are read to that function in Proof/ReferencePool.lean, the kernel body's
  stored value in Proof/KernelBlock.lean, and the blocks are laid into the result array in Proof/KernelArray.lean.
  The idealization rewrote nothing, so `preserves` is trivial; the three frames are the generated ones.
-/
import proofs.«106308_j78718160601617_1_alg».proof.Defs
import proofs.«106308_j78718160601617_1_alg».proof.Proof.Gen.Kernel
import proofs.«106308_j78718160601617_1_alg».proof.Proof.Gen.Kernel.Skeleton
import proofs.«106308_j78718160601617_1_alg».proof.Proof.Gen.Kernel.Launch
import proofs.«106308_j78718160601617_1_alg».proof.Proof.Gen.Kernel.Points
import proofs.«106308_j78718160601617_1_alg».proof.Proof.Gen.Kernel.Frame
import proofs.«106308_j78718160601617_1_alg».proof.Proof.Gen.KernelIdeal
import proofs.«106308_j78718160601617_1_alg».proof.Proof.Gen.KernelIdeal.Skeleton
import proofs.«106308_j78718160601617_1_alg».proof.Proof.Gen.KernelIdeal.Launch
import proofs.«106308_j78718160601617_1_alg».proof.Proof.Gen.KernelIdeal.Points
import proofs.«106308_j78718160601617_1_alg».proof.Proof.Gen.KernelIdeal.Frame
import proofs.«106308_j78718160601617_1_alg».proof.Proof.Gen.ReferenceIdeal
import proofs.«106308_j78718160601617_1_alg».proof.Proof.Gen.Pre_finite_inputs
import proofs.«106308_j78718160601617_1_alg».proof.Proof.Gen.KernelIdeal.Value
import proofs.«106308_j78718160601617_1_alg».proof.Proof.Gen.ReferenceIdeal.Run
import proofs.«106308_j78718160601617_1_alg».proof.Proof.Gen.ReferenceIdeal.Read
import proofs.«106308_j78718160601617_1_alg».proof.Proof.PairPool
import proofs.«106308_j78718160601617_1_alg».proof.Proof.ReferencePool
import proofs.«106308_j78718160601617_1_alg».proof.Proof.KernelBlock
import proofs.«106308_j78718160601617_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the pooled function of the shared arguments in their result. -/
theorem algebraic : Cert.algebraic_KernelIdeal_ReferenceIdeal := by
  intro m ρ m' ρ' _ hagree
  refine ⟨fun c => Cert.PairPool.pooled (Cert.KernelIdeal.Whole.points m c) (Cert.KernelIdeal.Whole.weight m c)
    (Cert.KernelIdeal.Whole.bias m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Pool.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
